-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S64x2048 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S64 : Shape := ⟨1, ![64]⟩
abbrev S1x64 : Shape := ⟨2, ![1, 64]⟩
abbrev S16384x64 : Shape := ⟨2, ![16384, 64]⟩
abbrev S1024x2048 : Shape := ⟨2, ![1024, 2048]⟩
abbrev S1024x64 : Shape := ⟨2, ![1024, 64]⟩
abbrev S1024 : Shape := ⟨1, ![1024]⟩
abbrev S1024x1 : Shape := ⟨2, ![1024, 1]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S1x64, .f32⟩
  | .hbm, ⟨4, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  inb_S1024x2048_S1024x2048_0_0 : ∀ a, (![0, 0] : Fin 2 → Nat) a + S1024x2048.size a ≤ S1024x2048.size a
  h_S1024x2048 : 0 < S1024x2048.numel
  inb_S64x2048_S64x2048_0_0 : ∀ a, (![0, 0] : Fin 2 → Nat) a + S64x2048.size a ≤ S64x2048.size a
  h_S64x2048 : 0 < S64x2048.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S1024x64_S1024x64_0_0 : ∀ a, (![0, 0] : Fin 2 → Nat) a + S1024x64.size a ≤ S1024x64.size a
  h_S1024x64 : 0 < S1024x64.numel
  dot_S1024x2048_S64x2048_S1024x64_1_1_0_0_n_n_wf : DotDims.WF S1024x2048 S64x2048 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .f32 = 32 ∨ (Rect.block (s := S16384x64) S1024x64.size (cc0_transform_3 i) (hinb0_3 i)).WholeWords (EltTy.packing .f32)

variable [Facts₀]

def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 25
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S16384x1, .f32⟩
  | .hbm, ⟨17, _⟩ => ⟨S16384x64, .f32⟩
  | .hbm, ⟨18, _⟩ => ⟨S16384x64, .f32⟩
  | .hbm, ⟨19, _⟩ => ⟨S16384x64, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x64, .f32⟩
  | .hbm, ⟨24, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.RowSoftmax.lean ====
/-
  The tempered softmax of one row, over the extended reals.

  A row of logits  z : Fin n → EReal  is sent to  exp (z j - M) / S  with  M = max_j z j  and
  S = Σ_j exp (z j - M).  Two spellings of the last step are compared: the quotient  e / S  and the
  product  e · (1 / S)  with the reciprocal taken first.  On the extended reals the quotient by zero is
  special (0 / 0 is ⊥ while 0 · (1 / 0) = 0 · ⊤ = 0), so the two agree exactly when  S ≠ 0.  For a row of
  REAL logits the maximum is attained, the entry that attains it contributes  exp 0 = 1,  every other
  entry contributes something nonnegative, hence  S ≥ 1  and the two spellings agree.

  Also here: the float literals of the two programs as extended reals, division by 2 as the product
  with 1/2, and that a logit  (Σ_k x_k · w_k + b) · 1/2  of real entries is real.
-/
import Idealize.ShloMosaic.PureOps.Ideal
import Idealize.ShloMosaic.PureOps.Ideal.Laws

noncomputable section

namespace Cert.RowSoftmax

open Idealize.ShloMosaic

/-! ## The literals -/

/-- The pattern of 0.5 denotes the real 1/2. -/
theorem ofBits_half : Ideal.ofBits .f32 0x3F000000#32 = ((1 / 2 : ℝ) : EReal) := by
  simp [Ideal.ofBits, Ideal.ieee, -EReal.coe_mul]; norm_num

/-- The pattern of 2.0 denotes the real 2. -/
theorem ofBits_two : Ideal.ofBits .f32 0x40000000#32 = ((2 : ℝ) : EReal) := by
  simp [Ideal.ofBits, Ideal.ieee, -EReal.coe_mul]; norm_num

/-- The pattern of 1.0 denotes 1. -/
theorem ofBits_one : Ideal.ofBits .f32 0x3F800000#32 = 1 := by
  simp [Ideal.ofBits, Ideal.ieee, -EReal.coe_mul]; norm_num

/-- The pattern of -inf denotes the bottom element. -/
theorem ofBits_neg_inf : Ideal.ofBits .f32 0xFF800000#32 = ⊥ := by
  simp [Ideal.ofBits, Ideal.ieee]

/-- Dividing by 2.0 is multiplying by 0.5, on every extended real. -/
theorem div_two (x : EReal) :
    Ideal.div x (Ideal.ofBits .f32 0x40000000#32) = x * Ideal.ofBits .f32 0x3F000000#32 := by
  rw [ofBits_two, ofBits_half, Ideal.div_coe (by norm_num : (2 : ℝ) ≠ 0)]

/-! ## Quotient and reciprocal -/

/-- Off zero, the product with the reciprocal is the quotient. -/
theorem mul_div_one (e s : EReal) (hs : s ≠ 0) : e * Ideal.div 1 s = Ideal.div e s := by
  unfold Ideal.div
  rw [if_neg hs, if_neg hs, one_mul]

/-! ## The maximum of a row -/

variable {n : Nat}

/-- The greatest entry of a row, as the fold of `max` from the bottom element. -/
def rowMax (z : Fin n → EReal) : EReal := (Finset.univ : Finset (Fin n)).fold max ⊥ z

theorem le_rowMax (z : Fin n → EReal) (j : Fin n) : z j ≤ rowMax z :=
  ((Finset.fold_max_le (s := Finset.univ) (b := ⊥) (f := z) (rowMax z)).mp le_rfl).2 j (Finset.mem_univ j)

/-- A nonempty row none of whose entries is ⊥ attains its maximum. -/
theorem rowMax_attained (hn : 0 < n) (z : Fin n → EReal) (hz : ∀ j, z j ≠ ⊥) : ∃ j, z j = rowMax z := by
  rcases (Finset.le_fold_max (s := Finset.univ) (b := ⊥) (f := z) (rowMax z)).mp le_rfl with h | ⟨j, _, hj⟩
  · exact absurd (le_bot_iff.mp ((le_rowMax z ⟨0, hn⟩).trans h)) (hz ⟨0, hn⟩)
  · exact ⟨j, le_antisymm (le_rowMax z j) hj⟩

/-! ## The sum of the exponentials -/

theorem exp_nonneg (x : EReal) : 0 ≤ Ideal.exp x := by
  induction x using EReal.rec with
  | bot => exact le_rfl
  | coe r => exact EReal.coe_nonneg.mpr (Real.exp_pos r).le
  | top => exact le_top

/-- For a nonempty row of reals the sum of  exp (z j - max z)  is at least 1, so not zero. -/
theorem sum_exp_ne_zero (hn : 0 < n) (z : Fin n → EReal) (hz : ∀ j, ∃ r : ℝ, z j = (r : EReal)) :
    ∑ j, Ideal.exp (z j - rowMax z) ≠ 0 := by
  obtain ⟨j, hj⟩ := rowMax_attained hn z (fun j => by
    obtain ⟨r, hr⟩ := hz j
    rw [hr]; exact EReal.coe_ne_bot r)
  obtain ⟨r, hr⟩ := hz j
  have h1 : Ideal.exp (z j - rowMax z) = 1 := by
    rw [← hj, hr, ← EReal.coe_sub, sub_self, Ideal.exp_coe, Real.exp_zero, EReal.coe_one]
  have h2 : (1 : EReal) ≤ ∑ j, Ideal.exp (z j - rowMax z) := by
    rw [← h1]
    exact Finset.single_le_sum (f := fun j => Ideal.exp (z j - rowMax z)) (fun i _ => exp_nonneg _) (Finset.mem_univ j)
  intro h0
  rw [h0] at h2
  exact absurd h2 (by norm_num)

/-- The softmax of a row at an entry: the quotient form. -/
def softmaxRow (z : Fin n → EReal) (j : Fin n) : EReal :=
  Ideal.div (Ideal.exp (z j - rowMax z)) (∑ j', Ideal.exp (z j' - rowMax z))

/-- The reciprocal-first form equals the quotient form on a nonempty row of reals. -/
theorem mul_recip_eq_softmaxRow (hn : 0 < n) (z : Fin n → EReal) (hz : ∀ j, ∃ r : ℝ, z j = (r : EReal)) (j : Fin n) :
    Ideal.exp (z j - rowMax z) * Ideal.div 1 (∑ j', Ideal.exp (z j' - rowMax z)) = softmaxRow z j :=
  mul_div_one _ _ (sum_exp_ne_zero hn z hz)

/-! ## A logit of real entries is real -/

/-- A finite sum of reals, taken in the extended reals, is the real sum. -/
theorem sum_coe {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The scaled affine form  (Σ_k x_k · w_k + b) · h  of real entries is a real. -/
theorem logit_real {K : Nat} (x w : Fin K → EReal) (b h : EReal)
    (hx : ∀ k, ∃ r : ℝ, x k = (r : EReal)) (hw : ∀ k, ∃ r : ℝ, w k = (r : EReal))
    (hb : ∃ r : ℝ, b = (r : EReal)) (hh : ∃ r : ℝ, h = (r : EReal)) :
    ∃ r : ℝ, (∑ k, x k * w k + b) * h = (r : EReal) := by
  choose x' hx' using hx
  choose w' hw' using hw
  obtain ⟨b', rfl⟩ := hb
  obtain ⟨h', rfl⟩ := hh
  refine ⟨(∑ k, x' k * w' k + b') * h', ?_⟩
  have : ∀ k, x k * w k = ((x' k * w' k : ℝ) : EReal) := fun k => by rw [hx', hw', EReal.coe_mul]
  simp only [this]
  rw [sum_coe, ← EReal.coe_add, ← EReal.coe_mul]

end Cert.RowSoftmax

end
-- ==== Proof.RouterSpec.lean ====
/-
  The router's result as ONE function of the three argument arrays, index by index.

  For token r and expert j the logit is  z r j = (Σ_k x[r,k] · w[j,k] + b[j]) · 1/2  (temperature 2), and the
  routing weight is the softmax of row r at j.  Two spellings: `router` ends in the quotient  e / S,
  `routerRecip` in the product  e · (1 / S).  They agree when every entry of x, w, b is real, because then the
  row's sum S is at least 1 (RowSoftmax).
-/
import proofs.«140433_g39702677684789_cont_8to1_b_1864_2_alg».proof.Proof.RowSoftmax
import Idealize.ShloMosaic.Lib.ValueIdx

noncomputable section

namespace Cert.RouterSpec

open Idealize.ShloMosaic Idealize.ShloMosaic.ValueIdx Cert.RowSoftmax

/-- The logit of token `r` for expert `j`. -/
def logit (x : (⟨2, ![16384, 2048]⟩ : Shape).Idx → EReal) (w : (⟨2, ![64, 2048]⟩ : Shape).Idx → EReal)
    (b : (⟨1, ![64]⟩ : Shape).Idx → EReal) (r : Fin 16384) (j : Fin 64) : EReal :=
  (∑ k : Fin 2048, x (ix2 r k) * w (ix2 j k) + b (ix1 j)) * Ideal.ofBits .f32 0x3F000000#32

/-- The routing weights, quotient form: the softmax of each token's row of logits. -/
def router (x : (⟨2, ![16384, 2048]⟩ : Shape).Idx → EReal) (w : (⟨2, ![64, 2048]⟩ : Shape).Idx → EReal)
    (b : (⟨1, ![64]⟩ : Shape).Idx → EReal) : (⟨2, ![16384, 64]⟩ : Shape).Idx → EReal :=
  fun i => softmaxRow (logit x w b (i 0)) (i 1)

/-- The routing weights, reciprocal-first form. -/
def routerRecip (x : (⟨2, ![16384, 2048]⟩ : Shape).Idx → EReal) (w : (⟨2, ![64, 2048]⟩ : Shape).Idx → EReal)
    (b : (⟨1, ![64]⟩ : Shape).Idx → EReal) : (⟨2, ![16384, 64]⟩ : Shape).Idx → EReal :=
  fun i => Ideal.exp (logit x w b (i 0) (i 1) - rowMax (logit x w b (i 0)))
    * Ideal.div 1 (∑ j : Fin 64, Ideal.exp (logit x w b (i 0) j - rowMax (logit x w b (i 0))))

/-- On real inputs every logit is real. -/
theorem logit_is_real (x : (⟨2, ![16384, 2048]⟩ : Shape).Idx → EReal) (w : (⟨2, ![64, 2048]⟩ : Shape).Idx → EReal)
    (b : (⟨1, ![64]⟩ : Shape).Idx → EReal) (hx : ∀ i, ∃ r : ℝ, x i = (r : EReal)) (hw : ∀ i, ∃ r : ℝ, w i = (r : EReal))
    (hb : ∀ i, ∃ r : ℝ, b i = (r : EReal)) (r : Fin 16384) (j : Fin 64) : ∃ v : ℝ, logit x w b r j = (v : EReal) :=
  logit_real (fun k => x (ix2 r k)) (fun k => w (ix2 j k)) (b (ix1 j)) _ (fun k => hx _) (fun k => hw _) (hb _)
    ⟨1 / 2, ofBits_half⟩

/-- On real inputs the two spellings agree. -/
theorem routerRecip_eq_router (x : (⟨2, ![16384, 2048]⟩ : Shape).Idx → EReal) (w : (⟨2, ![64, 2048]⟩ : Shape).Idx → EReal)
    (b : (⟨1, ![64]⟩ : Shape).Idx → EReal) (hx : ∀ i, ∃ r : ℝ, x i = (r : EReal)) (hw : ∀ i, ∃ r : ℝ, w i = (r : EReal))
    (hb : ∀ i, ∃ r : ℝ, b i = (r : EReal)) : routerRecip x w b = router x w b :=
  funext fun i => mul_recip_eq_softmaxRow (by norm_num) (logit x w b (i 0)) (logit_is_real x w b hx hw hb (i 0)) (i 1)

end Cert.RouterSpec

end
-- ==== Proof.KernelBlock.lean ====
/-
  One grid point of the kernel: what the body stores, read at an index of its [1024, 64] block.

  From a block x of 1024 tokens, the whole weight matrix w and the bias row b the body forms the block logits
  z[p, q] = (Σ_k x[p, k] · w[q, k] + b[0, q]) · 1/2  (a matrix product into the zero accumulator, contracting the
  second axis of both operands), then per row the maximum M[p] (a lane fold of max from -inf), e[p, q] = exp (z[p, q] - M[p]),
  the lane sum S[p] = Σ_q e[p, q], the reciprocal 1 / S[p] kept as a column, and stores e[p, q] · (1 / S[p]).
  Each layout step (a row laid down the rows, a column laid along the lanes, a vector recast as a column) reads its
  operand at the evident index.
-/
import proofs.«140433_g39702677684789_cont_8to1_b_1864_2_alg».proof.Proof.Gen.KernelIdeal.Skeleton
import proofs.«140433_g39702677684789_cont_8to1_b_1864_2_alg».proof.Proof.RowSoftmax
import Idealize.ShloMosaic.Lib.ValueIdx
import Idealize.ShloMosaic.Lib.Pipeline.Value
import Idealize.ShloMosaic.PureOps.Ideal.Laws

noncomputable section

namespace Cert.KernelBlock

open Idealize.ShloMosaic Idealize.ShloMosaic.ValueIdx Cert.KernelIdeal Cert.KernelIdeal.Gen Cert.RowSoftmax

/-! ## Layout steps read at an index -/

/-- A [1, 64] row laid down 1024 rows reads, at (p, q), the row at (0, q). -/
theorem rowDown_apply {α : Type} (v : S1x64.Idx → α) (h1 : S1x64.ShapeCasts S1x64) (h2 : S1x64.Broadcasts S1024x64)
    (p : Fin 1024) (q : Fin 64) :
    broadcastTo S1024x64 (shapeCast S1x64 v h1) h2 (ix2 p q) = v (ix2 (0 : Fin 1) q) := by
  rw [shapeCast_self]
  exact broadcastTo_apply v h2 (ix2 p q) (ix2 (0 : Fin 1) q) (fun a => by
    match a with
    | ⟨0, _⟩ => show (0 : Nat) = if (1 : Nat) = 1 then 0 else _; rw [if_pos rfl]
    | ⟨1, _⟩ => show q.val = if (64 : Nat) = 1 then 0 else q.val; rw [if_neg (by decide)])

/-- A [1024, 1] column laid along 64 lanes reads, at (p, q), the column at (p, 0). -/
theorem colAlong_apply {α : Type} (v : S1024x1.Idx → α) (h2 : S1024x1.Broadcasts S1024x64) (p : Fin 1024) (q : Fin 64) :
    broadcastTo S1024x64 v h2 (ix2 p q) = v (ix2 p (0 : Fin 1)) :=
  broadcastTo_apply v h2 (ix2 p q) (ix2 p (0 : Fin 1)) (fun a => by
    match a with
    | ⟨0, _⟩ => show p.val = if (1024 : Nat) = 1 then 0 else p.val; rw [if_neg (by decide)]
    | ⟨1, _⟩ => show (0 : Nat) = if (1 : Nat) = 1 then 0 else _; rw [if_pos rfl])

/-- A length-1024 vector recast as a column reads, at (p, 0), the vector at p. -/
theorem asCol_apply {α : Type} (v : S1024.Idx → α) (h1 : S1024.ShapeCasts S1024x1) (p : Fin 1024) :
    shapeCast S1024x1 v h1 (ix2 p (0 : Fin 1)) = v (ix1 p) :=
  shapeCast_apply v h1 (ix2 p (0 : Fin 1)) (ix1 p) (by
    rw [Shape.rowMajor_val_one, Shape.rowMajor_val_two]
    show p.val = p.val * 1 + 0
    omega)

/-! ## The two lane reductions -/

/-- A reduced index with its lane put back is (p, k). -/
theorem lift_lane (h : S1024x64.Reduces [1] S1024) (p : Fin 1024) (k : Fin (S1024x64.size 1)) :
    h.lift (ix1 p) k = ix2 p (⟨k.val, k.isLt⟩ : Fin 64) := by
  funext c; apply Fin.ext
  match c with
  | ⟨0, _⟩ => rfl
  | ⟨1, _⟩ => rfl

/-- The lane sum of row p. -/
theorem laneSum_apply (v : FVec Ideal S1024x64 .f32) (h : S1024x64.Reduces [1] S1024) (hφ : FKind.Formats .f32)
    (hacc : (0x00000000#32 : BitVec 32) = 0x00000000#32) (p : Fin 1024) :
    multiReduction .add [1] S1024 v 0x00000000#32 h hφ hacc (ix1 p) = ∑ j : Fin 64, v (ix2 p j) := by
  refine (Ideal.multiReduction_add_single v 0x00000000#32 h hφ hacc (ix1 p)).trans ?_
  exact Finset.sum_congr rfl fun k _ => congrArg v (lift_lane h p k)

/-- The lane maximum of row p: the fold of max from the bottom element. -/
theorem laneMax_apply (v : FVec Ideal S1024x64 .f32) (h : S1024x64.Reduces [1] S1024) (hφ : FKind.Formats .f32)
    (hacc : (0xFF800000#32 : BitVec 32) = 0xFF800000#32) (p : Fin 1024) :
    multiReduction .maximumf [1] S1024 v 0xFF800000#32 h hφ hacc (ix1 p) = rowMax fun j : Fin 64 => v (ix2 p j) := by
  refine (Ideal.multiReduction_maximumf_single v 0xFF800000#32 h hφ hacc (ix1 p)).trans ?_
  have hf : (v ∘ h.lift (ix1 p)) = fun j : Fin 64 => v (ix2 p j) := funext fun k => congrArg v (lift_lane h p k)
  rw [hf]
  show Finset.fold max (Ideal.ofBits .f32 0xFF800000#32) _ _ = _
  rw [ofBits_neg_inf]
  rfl

/-! ## The matrix product, contracting the second axis of both operands -/

theorem lhs_axis0 (i : S1024x64.Idx) (q : dot_S1024x2048_S64x2048_S1024x64_1_1_0_0_n_n.contr.Idx) :
    (dot_S1024x2048_S64x2048_S1024x64_1_1_0_0_n_n.lhsIdx i q 0).val = (i 0).val := by
  unfold DotDims.lhsIdx
  rw [dif_neg (show ¬(0 : Fin S1024x2048.rank) ∈ dot_S1024x2048_S64x2048_S1024x64_1_1_0_0_n_n.lhsBatch by decide),
    dif_pos (show (0 : Fin S1024x2048.rank) ∈ dot_S1024x2048_S64x2048_S1024x64_1_1_0_0_n_n.lhsNonContracting by decide)]
  rfl

theorem lhs_axis1 (i : S1024x64.Idx) (q : dot_S1024x2048_S64x2048_S1024x64_1_1_0_0_n_n.contr.Idx) :
    (dot_S1024x2048_S64x2048_S1024x64_1_1_0_0_n_n.lhsIdx i q 1).val = (q ⟨0, by decide⟩).val :=
  dot_S1024x2048_S64x2048_S1024x64_1_1_0_0_n_n.lhsIdx_val_of_single rfl i q

theorem rhs_axis0 (i : S1024x64.Idx) (q : dot_S1024x2048_S64x2048_S1024x64_1_1_0_0_n_n.contr.Idx) :
    (dot_S1024x2048_S64x2048_S1024x64_1_1_0_0_n_n.rhsIdx i q 0).val = (i 1).val := by
  unfold DotDims.rhsIdx
  rw [dif_neg (show ¬(0 : Fin S64x2048.rank) ∈ dot_S1024x2048_S64x2048_S1024x64_1_1_0_0_n_n.rhsBatch by decide),
    dif_pos (show (0 : Fin S64x2048.rank) ∈ dot_S1024x2048_S64x2048_S1024x64_1_1_0_0_n_n.rhsNonContracting by decide)]
  rfl

theorem rhs_axis1 (i : S1024x64.Idx) (q : dot_S1024x2048_S64x2048_S1024x64_1_1_0_0_n_n.contr.Idx) :
    (dot_S1024x2048_S64x2048_S1024x64_1_1_0_0_n_n.rhsIdx i q 1).val = (q ⟨0, by decide⟩).val :=
  dot_S1024x2048_S64x2048_S1024x64_1_1_0_0_n_n.rhsIdx_val_of_single rfl i q

/-- The product into the zero accumulator at (p, q) is  Σ_k x[p, k] · w[q, k]. -/
theorem product_apply (x : FVec Ideal S1024x2048 .f32) (w : FVec Ideal S64x2048 .f32) (p : Fin 1024) (q : Fin 64) :
    matmul dot_S1024x2048_S64x2048_S1024x64_1_1_0_0_n_n none x w (constant S1024x64 .f32 0x00000000#32) (ix2 p q)
      = ∑ k : Fin 2048, x (ix2 p k) * w (ix2 q k) := by
  show FloatOps.matmul dot_S1024x2048_S64x2048_S1024x64_1_1_0_0_n_n none x w (constant S1024x64 .f32 0x00000000#32) (ix2 p q) = _
  rw [Ideal.matmul_constant_zero_apply, ← Equiv.sum_comp (contrEquiv1 dot_S1024x2048_S64x2048_S1024x64_1_1_0_0_n_n 2048 rfl rfl).symm]
  refine Finset.sum_congr rfl fun k _ => ?_
  have hk := contrEquiv1_symm_val dot_S1024x2048_S64x2048_S1024x64_1_1_0_0_n_n 2048 rfl rfl k
  have el : dot_S1024x2048_S64x2048_S1024x64_1_1_0_0_n_n.lhsIdx (ix2 p q)
      ((contrEquiv1 dot_S1024x2048_S64x2048_S1024x64_1_1_0_0_n_n 2048 rfl rfl).symm k) = ix2 p k := funext fun a => Fin.ext (by
    match a with
    | ⟨0, _⟩ => exact lhs_axis0 _ _
    | ⟨1, _⟩ => exact (lhs_axis1 _ _).trans hk)
  have er : dot_S1024x2048_S64x2048_S1024x64_1_1_0_0_n_n.rhsIdx (ix2 p q)
      ((contrEquiv1 dot_S1024x2048_S64x2048_S1024x64_1_1_0_0_n_n 2048 rfl rfl).symm k) = ix2 q k := funext fun a => Fin.ext (by
    match a with
    | ⟨0, _⟩ => exact rhs_axis0 _ _
    | ⟨1, _⟩ => exact (rhs_axis1 _ _).trans hk)
  rw [el, er]

/-! ## The body in two stages -/

/-- The block's logits. -/
def blockLogits (x : FVec Ideal S1024x2048 .f32) (w : FVec Ideal S64x2048 .f32) (b : FVec Ideal S1x64 .f32) : FVec Ideal S1024x64 .f32 :=
  mulf (addf (matmul dot_S1024x2048_S64x2048_S1024x64_1_1_0_0_n_n none x w (constant S1024x64 .f32 0x00000000#32))
      (broadcastTo S1024x64 (shapeCast S1x64 b shapeCasts_S1x64_S1x64) broadcasts_S1x64_S1024x64))
    (broadcast S1024x64 (Scalar.ofBits .f32 0x3F000000#32))

/-- The exponentials of a block of logits, each row shifted by its maximum. -/
def blockExp (z : FVec Ideal S1024x64 .f32) : FVec Ideal S1024x64 .f32 :=
  exp (subf z (broadcastTo S1024x64
    (shapeCast S1024x1 (multiReduction .maximumf [1] S1024 z 0xFF800000#32 reduces_S1024x64_S1024 (.inl rfl) rfl) shapeCasts_S1024_S1024x1)
    broadcasts_S1024x1_S1024x64))

/-- The stored block: each exponential times the reciprocal of its row's sum. -/
def blockWeights (z : FVec Ideal S1024x64 .f32) : FVec Ideal S1024x64 .f32 :=
  mulf (blockExp z) (broadcastTo S1024x64
    (divf (broadcast S1024x1 (Scalar.ofBits .f32 0x3F800000#32))
      (shapeCast S1024x1 (multiReduction .add [1] S1024 (blockExp z) 0x00000000#32 reduces_S1024x64_S1024 (.inl rfl) rfl) shapeCasts_S1024_S1024x1))
    broadcasts_S1024x1_S1024x64)

/-- The body's stored value is the second stage of the first. -/
theorem pay_eq (x : FVec Ideal S1024x2048 .f32) (w : FVec Ideal S64x2048 .f32) (b : FVec Ideal S1x64 .f32) :
    k0_pay1 (F := Ideal) x w b = blockWeights (blockLogits x w b) := rfl

/-- A block logit at (p, q). -/
theorem blockLogits_apply (x : FVec Ideal S1024x2048 .f32) (w : FVec Ideal S64x2048 .f32) (b : FVec Ideal S1x64 .f32)
    (p : Fin 1024) (q : Fin 64) :
    blockLogits x w b (ix2 p q)
      = (∑ k : Fin 2048, x (ix2 p k) * w (ix2 q k) + b (ix2 (0 : Fin 1) q)) * Ideal.ofBits .f32 0x3F000000#32 := by
  unfold blockLogits
  rw [mulf_apply, addf_apply, product_apply, rowDown_apply]
  rfl

/-- An exponential at (p, q). -/
theorem blockExp_apply (z : FVec Ideal S1024x64 .f32) (p : Fin 1024) (q : Fin 64) :
    blockExp z (ix2 p q) = Ideal.exp (z (ix2 p q) - rowMax fun j : Fin 64 => z (ix2 p j)) := by
  unfold blockExp
  show Ideal.exp (subf z _ (ix2 p q)) = _
  rw [subf_apply, colAlong_apply, asCol_apply, laneMax_apply]

/-- The stored value at (p, q): the reciprocal-first softmax of row p. -/
theorem blockWeights_apply (z : FVec Ideal S1024x64 .f32) (p : Fin 1024) (q : Fin 64) :
    blockWeights z (ix2 p q)
      = Ideal.exp (z (ix2 p q) - rowMax fun j : Fin 64 => z (ix2 p j))
        * Ideal.div 1 (∑ j : Fin 64, Ideal.exp (z (ix2 p j) - rowMax fun j' : Fin 64 => z (ix2 p j'))) := by
  unfold blockWeights
  rw [mulf_apply, colAlong_apply, divf_apply, asCol_apply, laneSum_apply, blockExp_apply]
  simp only [blockExp_apply]
  show _ * Ideal.div (Ideal.ofBits .f32 0x3F800000#32) _ = _
  rw [ofBits_one]

end Cert.KernelBlock

end
-- ==== Proof.KernelArray.lean ====
/-
  From the kernel's sixteen grid points to its whole result array.

  Grid point t stages rows [1024·t, 1024·t + 1024) of x, all of w, and the bias recast as a [1, 64] row, and
  writes back rows [1024·t, 1024·t + 1024) of the result.  What it writes at row p, lane q of its block is the
  reciprocal-first softmax of the logits of token 1024·t + p, that is `routerRecip` of the three argument arrays at
  (1024·t + p, q).  The sixteen blocks tile the [16384, 64] array (row r lies in block r / 1024), so after the run the
  array is `routerRecip x w b` everywhere.
-/
import proofs.«140433_g39702677684789_cont_8to1_b_1864_2_alg».proof.Proof.Gen.KernelIdeal.Value
import proofs.«140433_g39702677684789_cont_8to1_b_1864_2_alg».proof.Proof.KernelBlock
import proofs.«140433_g39702677684789_cont_8to1_b_1864_2_alg».proof.Proof.RouterSpec
import Idealize.ShloMosaic.Lib.StableHlo.Run

noncomputable section

namespace Cert.KernelArray

open Cert.KernelIdeal Cert.KernelIdeal.Gen Idealize.ShloMosaic Idealize.ShloMosaic.TcCoe Idealize.SL.Sem
open Idealize.ShloMosaic.ValueIdx Cert.RowSoftmax Cert.RouterSpec Cert.KernelBlock
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-! ## The bias row as the region finds it -/

/-- The one host operation before the region recasts the bias vector as a [1, 64] row: at (0, j) it holds b[j]. -/
theorem bias_row (c : Dev nD) (j : Fin 64) :
    (V m c main_v0 : S1x64.Idx → EReal) (ix2 (0 : Fin 1) j) = (m ((c : Thread nD τ).loc main_arg2) : S64.Idx → EReal) (ix1 j) := by
  have e : (V m c main_v0 : S1x64.Idx → EReal) = shapeCast S1x64 (m ((c : Thread nD τ).loc main_arg2)) shapeCasts_S64_S1x64 := by
    dsimp only [Gen.V, Gen.hostOps0]; after_results; rfl
  rw [e]
  exact shapeCast_apply _ shapeCasts_S64_S1x64 (ix2 (0 : Fin 1) j) (ix1 j) (by
    rw [Shape.rowMajor_val_one, Shape.rowMajor_val_two]
    show j.val = 0 * 64 + j.val
    omega)

/-! ## The index maps, decided over the grid -/

/-- x's and the result's blocks move down the rows with the point; w's and the bias's stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row of the result is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-! ## One point's block -/

/-- If a [1024, 2048] block is rows r0 … of X, a [64, 2048] block is W, and a [1, 64] row is B, then the body's stored
    value at (p, q) is the reciprocal-first router of X, W, B at (r0 + p, q). -/
theorem block_eq (X : (⟨2, ![16384, 2048]⟩ : Shape).Idx → EReal) (W : (⟨2, ![64, 2048]⟩ : Shape).Idx → EReal)
    (B : (⟨1, ![64]⟩ : Shape).Idx → EReal)
    (x0 : FVec Ideal S1024x2048 .f32) (x1 : FVec Ideal S64x2048 .f32) (x2 : FVec Ideal S1x64 .f32) (r0 : Nat)
    (h0 : ∀ (p : Fin 1024) (k : Fin 2048) (r : Fin 16384), r.val = r0 + p.val → x0 (ix2 p k) = X (ix2 r k))
    (h1 : ∀ (j : Fin 64) (k : Fin 2048), x1 (ix2 j k) = W (ix2 j k))
    (h2 : ∀ j : Fin 64, x2 (ix2 (0 : Fin 1) j) = B (ix1 j))
    (y : S1024x64.Idx) (i : (⟨2, ![16384, 64]⟩ : Shape).Idx) (hi0 : (i 0).val = r0 + (y 0).val) (hi1 : (i 1).val = (y 1).val) :
    k0_pay1 (F := Ideal) x0 x1 x2 y = routerRecip X W B i := by
  obtain ⟨p, q, rfl⟩ : ∃ (p : Fin 1024) (q : Fin 64), y = ix2 p q := ⟨y 0, y 1, eq_ix2 y⟩
  have e1 : i 1 = q := Fin.ext hi1
  have hz : ∀ j : Fin 64, blockLogits x0 x1 x2 (ix2 p j) = logit X W B (i 0) j := fun j => by
    rw [blockLogits_apply]
    unfold logit
    simp only [h0 p _ (i 0) hi0, h1, h2]
  rw [pay_eq, blockWeights_apply]
  simp only [hz]
  unfold routerRecip
  rw [e1]

/-! ## What each point writes back -/

/-- Point t writes back block t of the reciprocal-first router of the argument arrays as the region finds them. -/
theorem flushed_eq (c : Dev nD) (t : Fin cfg0.N) :
    (dats m 0 c).flushed 3 t = ((cfg0.win 3).blk t).view.read (Elt Ideal)
      (routerRecip (V m c main_arg0) (V m c main_arg1) (m ((c : Thread nD τ).loc main_arg2))) := by
  rw [Cert.KernelIdeal.Value.flushed3]
  unfold out0_3
  rw [View.canon_unit_zero zero_offsets]
  simp only [View.ld_unit_zero (S := S1024x2048) zero_offsets, View.ld_unit_zero (S := S64x2048) zero_offsets,
    View.ld_unit_zero (S := S1x64) zero_offsets]
  obtain ⟨e00, e01, e10, e11, e20, e21, e30, e31⟩ := idx_facts t
  funext y
  show k0_pay1 (F := Ideal) (iblk m c 0 t) (iblk m c 1 t) (iblk m c 2 t) y
    = routerRecip (V m c main_arg0) (V m c main_arg1) (m ((c : Thread nD τ).loc main_arg2)) (((cfg0.win 3).blk t).view.emb y)
  refine block_eq (V m c main_arg0) (V m c main_arg1) (m ((c : Thread nD τ).loc main_arg2))
    (iblk m c 0 t) (iblk m c 1 t) (iblk m c 2 t) (t.val * 1024) ?_ ?_ ?_ y (((cfg0.win 3).blk t).view.emb y) ?_ ?_
  · intro p k r hr
    show V m c main_arg0 (((cfg0.win 0).blk t).view.emb (ix2 p k)) = V m c main_arg0 (ix2 r k)
    refine congrArg (V m c main_arg0) (funext fun a => Fin.ext ?_)
    match a with
    | ⟨0, _⟩ => show win0_0.index t (0 : Fin 2) * 1024 + 1 * p.val = r.val; omega
    | ⟨1, _⟩ => show win0_0.index t (1 : Fin 2) * 2048 + 1 * k.val = k.val; omega
  · intro j k
    show V m c main_arg1 (((cfg0.win 1).blk t).view.emb (ix2 j k)) = V m c main_arg1 (ix2 j k)
    refine congrArg (V m c main_arg1) (funext fun a => Fin.ext ?_)
    match a with
    | ⟨0, _⟩ => show win0_1.index t (0 : Fin 2) * 64 + 1 * j.val = j.val; omega
    | ⟨1, _⟩ => show win0_1.index t (1 : Fin 2) * 2048 + 1 * k.val = k.val; omega
  · intro j
    refine Eq.trans ?_ (bias_row m c j)
    show V m c main_v0 (((cfg0.win 2).blk t).view.emb (ix2 (0 : Fin 1) j)) = V m c main_v0 (ix2 (0 : Fin 1) j)
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 64 + 1 * j.val = j.val; omega
  · show win0_3.index t (0 : Fin 2) * 1024 + 1 * (y 0).val = t.val * 1024 + (y 0).val; omega
  · show win0_3.index t (1 : Fin 2) * 64 + 1 * (y 1).val = (y 1).val; omega

/-! ## The blocks tile the array -/

/-- An index of the result array is in point t's block iff each coordinate is in the block's range on its axis. -/
theorem mem_blk (t : Fin cfg0.N) (i : S16384x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v1).slice (win0_3.rect t)).set ↔ _
  rw [View.set_slice_whole, Rect.mem_set_unit]
  exact Iff.rfl

/-- Row r of the result lies in the block of point r / 1024. -/
theorem covered (i : S16384x64.Idx) : ∃ t : Fin cfg0.N, (cfg0.win 3).flush t = true ∧ i ∈ ((cfg0.win 3).blk t).view.set := by
  have hi0 : (i 0).val < 16384 := (i 0).isLt
  have hi1 : (i 1).val < 64 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 64 ≤ (i 1).val ∧ (i 1).val < win0_3.index t (1 : Fin 2) * 64 + 64; omega

/-! ## The array after the run, and the run -/

/-- After the run the result array is the reciprocal-first router of the argument arrays. -/
theorem final (c : Dev nD) : (dats m 0 c).arrAt 3 cfg0.N
    = routerRecip (m ((c : Thread nD τ).loc main_arg0)) (m ((c : Thread nD τ).loc main_arg1)) (m ((c : Thread nD τ).loc main_arg2)) := by
  rw [← V_main_arg0 m c, ← V_main_arg1 m c]
  exact (dats m 0 c).arrAt_eq_of_cover 3 _ (fun t _ => flushed_eq m c t) covered

/-- Every weakly fair execution of the idealized kernel ends with the result array at `routerRecip` of the arguments
    and the arguments unchanged. -/
theorem run : θ_run defs (onTc (τ := τ) (main (F := Ideal))) ⟨m, fun _ => 0, ρ⟩ fun r => ∀ c : Dev nD,
      r.2.mem ((c : Thread nD τ).loc main_v1)
        = routerRecip (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelArray

end
-- ==== Proof.RefValue.lean ====
/-
  The reference program's result, read index by index, is the router's quotient form.

  The reference computes  (x · wᵀ + b) / 2,  the row maximum (a fold of max from -inf, then once more max with -inf),
  exp of the difference, the row sum from 0, and the quotient.  Division by 2 is the product with 1/2 on every
  extended real, max with the bottom element is the identity, and 0 + S = S; so each stage is the corresponding
  stage of `RouterSpec.router`.
-/
import proofs.«140433_g39702677684789_cont_8to1_b_1864_2_alg».proof.Proof.Gen.ReferenceIdeal.Read
import proofs.«140433_g39702677684789_cont_8to1_b_1864_2_alg».proof.Proof.RouterSpec

noncomputable section

namespace Cert.RefValue

open Idealize.ShloMosaic Idealize.ShloMosaic.ValueIdx Cert.ReferenceIdeal Cert.ReferenceIdeal.Read Cert.RouterSpec Cert.RowSoftmax

/-! ## The index maps at explicit coordinates

Each stage reads its operands through an index map computed from the literal shapes.  At an index given by its
coordinates every such map is again an index given by coordinates. -/

/-- The product's left operand is read at row `p`, column `k`. -/
theorem lidx_at (p : Fin 16384) (q : Fin 64) (k : Fin 2048) : lidx_main_v1 (ix2 p q) k = ix2 p k :=
  funext fun a => Fin.ext (by match a with | ⟨0, _⟩ => rfl | ⟨1, _⟩ => rfl)

/-- The product's right operand, a transpose, is read from the weights at row `q`, column `k`. -/
theorem ridx_at (p : Fin 16384) (q : Fin 64) (k : Fin 2048) : idx_main_v0 (ridx_main_v1 (ix2 p q) k) = ix2 q k :=
  funext fun a => Fin.ext (by match a with | ⟨0, _⟩ => rfl | ⟨1, _⟩ => rfl)

/-- The bias, broadcast along the rows, is read at `q`. -/
theorem bias_idx_at (p : Fin 16384) (q : Fin 64) : idx_main_v2 (idx_main_v3 (ix2 p q)) = ix1 q :=
  funext fun a => Fin.ext (by match a with | ⟨0, _⟩ => rfl)

/-- The row maximum, broadcast along the columns, is read at `p`. -/
theorem max_idx_at (p : Fin 16384) (q : Fin 64) : idx_main_v10 (idx_main_v11 (ix2 p q)) = ix1 p :=
  funext fun a => Fin.ext (by match a with | ⟨0, _⟩ => rfl)

/-- The row sum, broadcast along the columns, is read at `p`. -/
theorem sum_idx_at (p : Fin 16384) (q : Fin 64) : idx_main_v15 (idx_main_v16 (ix2 p q)) = ix1 p :=
  funext fun a => Fin.ext (by match a with | ⟨0, _⟩ => rfl)

/-- The `k`-th summand of row `p`'s sum is read at row `p`, column `k`. -/
theorem row_idx_at (p : Fin 16384) (k : Fin 64) : idx_main_v14 (ix1 p) k = ix2 p k :=
  funext fun a => Fin.ext (by match a with | ⟨0, _⟩ => rfl | ⟨1, _⟩ => rfl)

/-- The reduced index `p` with column `k` put back is (p, k). -/
theorem lift_at (h : S16384x64.Reduces [1] S16384) (p : Fin 16384) (k : Fin 64) : h.lift (ix1 p) k = ix2 p k :=
  funext fun a => Fin.ext (by match a with | ⟨0, _⟩ => rfl | ⟨1, _⟩ => rfl)

/-! ## The stages -/

/-- The scaled affine stage at (p, q) is the logit: dividing by 2 is multiplying by 1/2. -/
theorem logits_at (x0 : FVec Ideal S16384x2048 .f32) (x1 : FVec Ideal S64x2048 .f32) (x2 : FVec Ideal S64 .f32)
    (p : Fin 16384) (q : Fin 64) : val_main_v6 (F := Ideal) x0 x1 x2 (ix2 p q) = logit x0 x1 x2 p q := by
  rw [val_main_v6_apply, val_main_v4_apply, val_main_v1_apply, val_main_v3_apply, val_main_v2_apply, val_main_v5_apply,
    val_main_cst_apply, bias_idx_at]
  simp only [val_main_v0_apply, lidx_at, ridx_at]
  rw [Ideal.hostDivf_def, Ideal.addf_def, Ideal.ofBits_def, div_two]
  rfl

/-- The fold of the maximum over row `p` from -inf, then the maximum with -inf once more, is the row's maximum. -/
theorem rowMax_at (x0 : FVec Ideal S16384x2048 .f32) (x1 : FVec Ideal S64x2048 .f32) (x2 : FVec Ideal S64 .f32)
    (p : Fin 16384) : val_main_v9 (F := Ideal) x0 x1 x2 (ix1 p) = rowMax (logit x0 x1 x2 p) := by
  have h : S16384x64.Reduces [1] S16384 := by decide
  have hrow : (val_main_v6 (F := Ideal) x0 x1 x2 ∘ h.lift (ix1 p)) = logit x0 x1 x2 p := funext fun k =>
    (congrArg (val_main_v6 (F := Ideal) x0 x1 x2) (lift_at h p k)).trans (logits_at x0 x1 x2 p k)
  rw [val_main_v9_apply, val_main_v8_apply, val_main_cst_1_apply]
  unfold val_main_v7
  rw [Host.reduce_eq_fold_single FloatOps.maximumf _ _ _ h, hrow, val_main_cst_0_apply, Ideal.maximumf_def,
    Ideal.ofBits_def, ofBits_neg_inf, max_bot_left]
  rfl

/-- The exponential stage at (p, q): exp of the logit less its row's maximum. -/
theorem exps_at (x0 : FVec Ideal S16384x2048 .f32) (x1 : FVec Ideal S64x2048 .f32) (x2 : FVec Ideal S64 .f32)
    (p : Fin 16384) (q : Fin 64) :
    val_main_v13 (F := Ideal) x0 x1 x2 (ix2 p q) = Ideal.exp (logit x0 x1 x2 p q - rowMax (logit x0 x1 x2 p)) := by
  rw [val_main_v13_apply, val_main_v12_apply, val_main_v11_apply, val_main_v10_apply, max_idx_at, logits_at, rowMax_at,
    Ideal.hostUnary_exp_def, Ideal.subf_def]

/-- The sum stage at `p`: from 0, the sum of the row's exponentials. -/
theorem rowSum_at (x0 : FVec Ideal S16384x2048 .f32) (x1 : FVec Ideal S64x2048 .f32) (x2 : FVec Ideal S64 .f32)
    (p : Fin 16384) :
    val_main_v14 (F := Ideal) x0 x1 x2 (ix1 p) = ∑ j : Fin 64, Ideal.exp (logit x0 x1 x2 p j - rowMax (logit x0 x1 x2 p)) := by
  rw [val_main_v14_apply, val_main_cst_2_apply, Ideal.ofBits_def, Ideal.ofBits_zero_f32, zero_add]
  refine Finset.sum_congr rfl fun k _ => ?_
  rw [row_idx_at, exps_at]

/-- The reference's last stage is the router's quotient form of the three arguments. -/
theorem ref_eq_router (x0 : FVec Ideal S16384x2048 .f32) (x1 : FVec Ideal S64x2048 .f32) (x2 : FVec Ideal S64 .f32) :
    val_main_v17 (F := Ideal) x0 x1 x2 = router x0 x1 x2 := by
  funext i
  obtain ⟨p, q, rfl⟩ : ∃ (p : Fin 16384) (q : Fin 64), i = ix2 p q := ⟨i 0, i 1, eq_ix2 i⟩
  rw [val_main_v17_apply, val_main_v16_apply, val_main_v15_apply, sum_idx_at, exps_at, rowSum_at, Ideal.hostDivf_def]
  rfl

end Cert.RefValue

end
-- ==== Proof.FiniteInputs.lean ====
/-
  The precondition "every float input is finite" gives: every entry of the three argument arrays is a real number.

  The printed predicate is  all(|x| < +inf) ∧ all(|w| < +inf) ∧ all(|b| < +inf)  as one i1.  An extended real whose
  absolute value  max a (-a)  is below +inf is neither +inf nor -inf, hence the image of a real.
-/
import proofs.«140433_g39702677684789_cont_8to1_b_1864_2_alg».proof.Proof.Gen.Pre_finite_inputs
import Idealize.ShloMosaic.Lib.ReduceAll
import Idealize.ShloMosaic.PureOps.Ideal.Laws

noncomputable section

namespace Cert.FiniteInputs

open Idealize.ShloMosaic

/-- The single-precision pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max a (-a)` lies strictly below `+∞` is the image of a real:
    at `-∞` and at `+∞` the maximum is `+∞`, which is not below itself. -/
theorem real_of_abs_lt_top (a : EReal) (h : max a (-a) < ⊤) : ∃ r : ℝ, a = (r : EReal) := by
  induction a using EReal.rec with
  | bot => simp at h
  | top => simp at h
  | coe r => exact ⟨r, rfl⟩

/-- The element test `|a| < +∞` coming out true says `a` is real. -/
theorem real_of_test (a : Ideal .f32)
    (h : FloatOps.cmpf .olt (FloatOps.hostAbsf a) (FloatOps.ofBits (F := Ideal) .f32 0x7F800000#32) = 1#1) :
    ∃ r : ℝ, a = (r : EReal) := by
  rw [Ideal.hostAbsf_def, Ideal.absf_def, Ideal.ofBits_def, ofBits_inf, Ideal.cmpf_def] at h
  by_cases hlt : max a (-a) < (⊤ : EReal)
  · exact real_of_abs_lt_top a hlt
  · simp [Ideal.cmp, hlt] at h

/-- The scalar result shape has one index. -/
instance : Subsingleton Cert.Pre_finite_inputs.S_.Idx := ⟨fun _ _ => funext fun d => d.elim0⟩

/-- One array: if `all(|x| < +∞)`, printed as a reduction by `and` of the elementwise test against the broadcast
    constant, is true, then every entry of `x` is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
          (cmpf .olt (Host.absf x) (broadcastInDim s ![] hb (constant Cert.Pre_finite_inputs.S_ .f32 0x7F800000#32)))
          init hr hu j = 1#1) (i : s.Idx) : ∃ r : ℝ, x i = (r : EReal) :=
  real_of_test (x i) (Host.reduce_andi_all _ init hr hu j e i)

/-- Under the precondition every entry of each argument is (the image of) a real. -/
theorem real_of_pre (x0 : FVec Ideal ⟨2, ![16384, 2048]⟩ .f32) (x1 : FVec Ideal ⟨2, ![64, 2048]⟩ .f32) (x2 : FVec Ideal ⟨1, ![64]⟩ .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h (fun a => a.elim0)
  dsimp only [Cert.Pre_finite_inputs.fn] at h0
  obtain ⟨h01, h2⟩ := IntOp.andi_eq_one.1 h0
  obtain ⟨h0', h1⟩ := IntOp.andi_eq_one.1 h01
  exact ⟨all_real x0 _ _ _ _ _ h0', all_real x1 _ _ _ _ _ h1, all_real x2 _ _ _ _ _ h2⟩

end Cert.FiniteInputs

end
-- ==== Proof.lean ====
/-
  A mixture-of-experts router: for 16384 tokens x[r, ·] of width 2048, 64 expert rows w[j, ·] and a bias b, the logits are
  (x · wᵀ + b) / 2 (temperature 2) and the result is the softmax of each token's row of 64 logits.

  The kernel works on blocks of 1024 tokens: a matrix product into a zero accumulator, the bias row added, the product
  with 0.5, the row maximum, exp of the difference, the row sum, its reciprocal, and the product e · (1 / S).  The
  reference divides by 2.0, takes the maximum once more against -inf, and ends in the quotient e / S.  Over the
  extended reals a float is an exact value and a sum does not depend on its order, so the two matrix products and the
  two row sums agree; division by 2 is the product with 1/2 everywhere; max with the bottom element is the identity.
  The last step is where finiteness is used: e · (1 / S) = e / S needs S ≠ 0 (at S = 0 the left side is 0 · ⊤ = 0 and
  the right side 0 / 0 = ⊥).  With every input entry a real number every logit is real, the row maximum is attained,
  the entry attaining it contributes exp 0 = 1, and S ≥ 1.

  Modules: RowSoftmax (one row over the extended reals), RouterSpec (the result as one function of the arguments, in both
  spellings), KernelBlock (one grid point's stored block at an index), KernelArray (the sixteen blocks tile the result),
  RefValue (the reference's stages at an index), FiniteInputs (the precondition gives real entries).  The kernel's idealization
  rewrote nothing, so the preservation claim is empty; the three frame claims are the generated frames and the reference's
  generated run.
-/
import proofs.«140433_g39702677684789_cont_8to1_b_1864_2_alg».proof.Defs
import proofs.«140433_g39702677684789_cont_8to1_b_1864_2_alg».proof.Proof.Gen.Kernel
import proofs.«140433_g39702677684789_cont_8to1_b_1864_2_alg».proof.Proof.Gen.Kernel.Skeleton
import proofs.«140433_g39702677684789_cont_8to1_b_1864_2_alg».proof.Proof.Gen.Kernel.Launch
import proofs.«140433_g39702677684789_cont_8to1_b_1864_2_alg».proof.Proof.Gen.Kernel.Points
import proofs.«140433_g39702677684789_cont_8to1_b_1864_2_alg».proof.Proof.Gen.Kernel.Frame
import proofs.«140433_g39702677684789_cont_8to1_b_1864_2_alg».proof.Proof.Gen.KernelIdeal
import proofs.«140433_g39702677684789_cont_8to1_b_1864_2_alg».proof.Proof.Gen.KernelIdeal.Skeleton
import proofs.«140433_g39702677684789_cont_8to1_b_1864_2_alg».proof.Proof.Gen.KernelIdeal.Launch
import proofs.«140433_g39702677684789_cont_8to1_b_1864_2_alg».proof.Proof.Gen.KernelIdeal.Points
import proofs.«140433_g39702677684789_cont_8to1_b_1864_2_alg».proof.Proof.Gen.KernelIdeal.Frame
import proofs.«140433_g39702677684789_cont_8to1_b_1864_2_alg».proof.Proof.Gen.ReferenceIdeal
import proofs.«140433_g39702677684789_cont_8to1_b_1864_2_alg».proof.Proof.Gen.Pre_finite_inputs
import proofs.«140433_g39702677684789_cont_8to1_b_1864_2_alg».proof.Proof.Gen.KernelIdeal.Value
import proofs.«140433_g39702677684789_cont_8to1_b_1864_2_alg».proof.Proof.Gen.ReferenceIdeal.Run
import proofs.«140433_g39702677684789_cont_8to1_b_1864_2_alg».proof.Proof.Gen.ReferenceIdeal.Read
import proofs.«140433_g39702677684789_cont_8to1_b_1864_2_alg».proof.Proof.RouterSpec
import proofs.«140433_g39702677684789_cont_8to1_b_1864_2_alg».proof.Proof.KernelArray
import proofs.«140433_g39702677684789_cont_8to1_b_1864_2_alg».proof.Proof.RefValue
import proofs.«140433_g39702677684789_cont_8to1_b_1864_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same routing weights: the kernel's array is the reciprocal-first router of the arguments,
    the reference's the quotient form, and on finite inputs the two are one function. -/
theorem algebraic : Cert.algebraic_KernelIdeal_ReferenceIdeal := by
  intro m ρ m' ρ' hpre hagree
  refine ⟨fun c => Cert.RouterSpec.routerRecip (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.RefValue.ref_eq_router, (hagree c).1, (hagree c).2.1, (hagree c).2.2]
  obtain ⟨hx, hw, hb⟩ := Cert.FiniteInputs.real_of_pre _ _ _ (hpre c)
  exact (Cert.RouterSpec.routerRecip_eq_router _ _ _ hx hw hb).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
